-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S4096 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩
abbrev S4096x1 : Shape := ⟨2, ![4096, 1]⟩
abbrev S4096x2 : Shape := ⟨2, ![4096, 2]⟩
abbrev S4096x128 : Shape := ⟨2, ![4096, 128]⟩

abbrev nBuf : Space → Nat
  | .hbm => 125
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4096, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S100000x128, .f32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000x2, .f32⟩
  | .hbm, ⟨91, _⟩ => ⟨S100000x2, .f32⟩
  | .hbm, ⟨92, _⟩ => ⟨S_, .i32⟩
  | .hbm, ⟨93, _⟩ => ⟨S4096, .i32⟩
  | .hbm, ⟨94, _⟩ => ⟨S4096, .i1⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S4096, .i32⟩
  | .hbm, ⟨99, _⟩ => ⟨S4096x1, .i32⟩
  | .hbm, ⟨100, _⟩ => ⟨S4096x2, .f32⟩
  | .hbm, ⟨101, _⟩ => ⟨S_, .f32⟩
  | .hbm, ⟨102, _⟩ => ⟨S4096, .f32⟩
  | .hbm, ⟨103, _⟩ => ⟨S_, .f32⟩
  | .hbm, ⟨104, _⟩ => ⟨S4096, .f32⟩
  | .hbm, ⟨105, _⟩ => ⟨S4096, .f32⟩
  | .hbm, ⟨106, _⟩ => ⟨S4096x1, .f32⟩
  | .hbm, ⟨107, _⟩ => ⟨S4096x2, .f32⟩
  | .hbm, ⟨108, _⟩ => ⟨S4096x2, .f32⟩
  | .hbm, ⟨109, _⟩ => ⟨S4096x2, .f32⟩
  | .hbm, ⟨110, _⟩ => ⟨S_, .f32⟩
  | .hbm, ⟨111, _⟩ => ⟨S4096, .f32⟩
  | .hbm, ⟨112, _⟩ => ⟨S4096x1, .f32⟩
  | .hbm, ⟨113, _⟩ => ⟨S4096x1, .f32⟩
  | .hbm, ⟨114, _⟩ => ⟨S4096x2, .f32⟩
  | .hbm, ⟨115, _⟩ => ⟨S4096x2, .f32⟩
  | .hbm, ⟨116, _⟩ => ⟨S_, .i32⟩
  | .hbm, ⟨117, _⟩ => ⟨S4096, .i32⟩
  | .hbm, ⟨118, _⟩ => ⟨S4096, .i1⟩
  | .hbm, ⟨119, _⟩ => ⟨S_, .i32⟩
  | .hbm, ⟨120, _⟩ => ⟨S4096, .i32⟩
  | .hbm, ⟨121, _⟩ => ⟨S4096, .i32⟩
  | .hbm, ⟨122, _⟩ => ⟨S4096, .i32⟩
  | .hbm, ⟨123, _⟩ => ⟨S4096x1, .i32⟩
  | .hbm, ⟨124, _⟩ => ⟨S4096x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_call2_cst_0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_cst_1 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_v72 : Ref sig .tc := ⟨.hbm, 115, rfl⟩
abbrev main_c_14 : Ref sig .tc := ⟨.hbm, 116, rfl⟩
abbrev main_v73 : Ref sig .tc := ⟨.hbm, 117, rfl⟩
abbrev main_v74 : Ref sig .tc := ⟨.hbm, 118, rfl⟩
abbrev main_c_15 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x2_S4096_d1 : S4096x2.ReducesTo [1] S4096
  h_S_ : 0 < S_.numel
  bcast_S4096x1_S4096x2_0_1 : S4096x1.BroadcastsInDim S4096x2 (![0, 1] : Fin 2 → Fin S4096x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S4096x1_S4096x2_1_0_n_n_0_1_12_wf : GatherDims.WF S100000x2 S4096x1 S4096x2 [1] [0] [] [0] [] 1 ![1, 2]
  gather_S100000x128_S4096x1_S4096x128_1_0_n_n_0_1_1128_wf : GatherDims.WF S100000x128 S4096x1 S4096x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S4096x1_S4096x2_1_0_n_n_0_1_12 : GatherDims S100000x2 S4096x1 S4096x2 where
  offsetDims := [1]
  collapsedSliceDims := [0]
  operandBatchingDims := []
  startIndicesBatchingDims := []
  startIndexMap := [0]
  indexVectorDim := 1
  sliceSizes := ![1, 2]
  wf := gather_S100000x2_S4096x1_S4096x2_1_0_n_n_0_1_12_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩
abbrev S4096x1 : Shape := ⟨2, ![4096, 1]⟩
abbrev S4096x2 : Shape := ⟨2, ![4096, 2]⟩
abbrev S4096x128 : Shape := ⟨2, ![4096, 128]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S4096, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x2, .f32⟩
  | 96 => ⟨S1x2, .f32⟩
  | 97 => ⟨S100000x2, .f32⟩
  | 98 => ⟨S100000x2, .f32⟩
  | 99 => ⟨S_, .f32⟩
  | 100 => ⟨S100000x2, .f32⟩
  | 101 => ⟨S100000x2, .f32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x2, .f32⟩
  | 111 => ⟨S_, .f32⟩
  | 112 => ⟨S4096, .f32⟩
  | 113 => ⟨S_, .f32⟩
  | 114 => ⟨S4096, .f32⟩
  | 115 => ⟨S4096, .f32⟩
  | 116 => ⟨S4096x1, .f32⟩
  | 117 => ⟨S4096x2, .f32⟩
  | 118 => ⟨S4096x2, .f32⟩
  | 119 => ⟨S4096x2, .f32⟩
  | 120 => ⟨S_, .f32⟩
  | 121 => ⟨S4096, .f32⟩
  | 122 => ⟨S4096x1, .f32⟩
  | 123 => ⟨S4096x1, .f32⟩
  | 124 => ⟨S4096x2, .f32⟩
  | 125 => ⟨S4096x2, .f32⟩
  | 126 => ⟨S_, .i32⟩
  | 127 => ⟨S4096, .i32⟩
  | _ => ⟨S100000x128, .f32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call3_cst : Ref sig .tc := ⟨.hbm, 99, rfl⟩
abbrev main_call3_v0 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call4_cst : Ref sig .tc := ⟨.hbm, 111, rfl⟩
abbrev main_call4_v0 : Ref sig .tc := ⟨.hbm, 112, rfl⟩
abbrev main_call4_cst_0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_cst_1 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_v78 : Ref sig .tc := ⟨.hbm, 125, rfl⟩
abbrev main_c_14 : Ref sig .tc := ⟨.hbm, 126, rfl⟩
abbrev main_v79 : Ref sig .tc := ⟨.hbm, 127, rfl⟩
abbrev main_v80 : Ref sig .tc := ⟨.hbm, 128, rfl⟩
abbrev main_c_15 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x2_S4096_d1 : S4096x2.ReducesTo [1] S4096
  h_S_ : 0 < S_.numel
  bcast_S4096x1_S4096x2_0_1 : S4096x1.BroadcastsInDim S4096x2 (![0, 1] : Fin 2 → Fin S4096x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S4096x1_S4096x2_1_0_n_n_0_1_12_wf : GatherDims.WF S100000x2 S4096x1 S4096x2 [1] [0] [] [0] [] 1 ![1, 2]
  gather_S100000x128_S4096x1_S4096x128_1_0_n_n_0_1_1128_wf : GatherDims.WF S100000x128 S4096x1 S4096x128 [1] [0] [] [0] [] 1 ![1, 128]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S4096x1_S4096x2_1_0_n_n_0_1_12 : GatherDims S100000x2 S4096x1 S4096x2 where
  offsetDims := [1]
  collapsedSliceDims := [0]
  operandBatchingDims := []
  startIndicesBatchingDims := []
  startIndexMap := [0]
  indexVectorDim := 1
  sliceSizes := ![1, 2]
  wf := gather_S100000x2_S4096x1_S4096x2_1_0_n_n_0_1_12_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.DotFacts.lean ====
/-
  The two matrix products of the layer: the kernel's row tile [5000, 128] x [128, 128] and the plain program's whole
  [100000, 128] x [128, 128]. Both contract the left operand's column with the right operand's row: each record is a
  plain product in the sense of the library lemma file, so each product at (r, c) is the sum over k of x (r, k) * w (k, c).
-/
import proofs.«111607_j7825430413942_1_alg».proof.Proof.Gen.KernelIdeal
import proofs.«111607_j7825430413942_1_alg».proof.Proof.Gen.ReferenceIdeal
import proofs.«111607_j7825430413942_1_alg».proof.Proof.LibAffineRows

noncomputable section

namespace Cert.KernelIdeal.DotFacts

open Cert.KernelIdeal Cert.KernelIdeal.Gen Idealize.ShloMosaic

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's product is a plain [5000, 128] x [128, 128] product. -/
theorem plain_tile : Cert.Lib.PlainDot (R := 5000) (K := 128) (M := 128) dot_S5000x128_S128x128_S5000x128_1_0_0_1_n_n :=
  ⟨rfl, rfl, lhs_tile_0, lhs_tile_1, rhs_tile_0, rhs_tile_1⟩

end Cert.KernelIdeal.DotFacts

namespace Cert.ReferenceIdeal.DotFacts

open Cert.ReferenceIdeal Cert.ReferenceIdeal.Gen Idealize.ShloMosaic

theorem lhs_whole_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_whole_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_whole_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_whole_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The whole product is a plain [100000, 128] x [128, 128] product. -/
theorem plain_whole : Cert.Lib.PlainDot (R := 100000) (K := 128) (M := 128) dot_S100000x128_S128x128_S100000x128_1_0_0_1_n_n :=
  ⟨rfl, rfl, lhs_whole_0, lhs_whole_1, rhs_whole_0, rhs_whole_1⟩

end Cert.ReferenceIdeal.DotFacts

end
-- ==== Proof.Lin0.lean ====
/-
  The dense layer of pallas_call 0, read as one whole-array function.

  The call tiles the rows of X : [100000, 128] into 20 blocks of 5000 rows; at block t the body multiplies the block by
  the whole weight matrix w : [128, 128] on the matrix unit (operands narrowed to bf16, accumulated into zeros) and
  stores the [5000, 128] product into block t of the result. Over the extended reals narrowing is the identity and the
  tile's product at (r, q) is the sum over k of X (5000 t + r, k) * w (k, q): row 5000 t + r of the one product X * w
  that the plain program computes by a single dot_general. The 20 blocks tile the result's rows, so the result array
  after the call IS that dot_general of the two arrays as the call found them, whatever those are.
-/
import proofs.«111607_j7825430413942_1_alg».proof.Proof.Gen.KernelIdeal.Frame
import proofs.«111607_j7825430413942_1_alg».proof.Proof.DotFacts
import Idealize.ShloMosaic.Lib.Pipeline.Value
import Idealize.ShloMosaic.Lib.ValueIdx

noncomputable section

namespace Cert.KernelIdeal.Lin0

open Cert.KernelIdeal Cert.KernelIdeal.Gen Idealize.ShloMosaic Idealize.ShloMosaic.TcCoe Idealize.SL.Sem Idealize.ShloMosaic.ValueIdx
open Idealize.ShloMosaic.Pipeline (Dat)

-- The buffer contents the call is entered from: arbitrary.
variable (V : (c : Dev nD) → (b : Ref sig .tc) → Buf (Elt Ideal) ((c : Thread nD τ).loc b))

theorem hz : (![0, 0] : Fin 2 → Nat) = fun _ => 0 := funext fun a => by fin_cases a <;> rfl

/-- The plain program's product of the whole arrays. -/
abbrev whole (x : FVec Ideal S100000x128 .f32) (w : FVec Ideal S128x128 .f32) : FVec Ideal S100000x128 .f32 :=
  Host.dotGeneral Cert.ReferenceIdeal.dot_S100000x128_S128x128_S100000x128_1_0_0_1_n_n none x w

/-- Block t of X and of the result is row block t, all columns; the weights' block is always the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of a row tile and the weights, at (r, q): the sum over the contracted index. -/
theorem tile_apply (xb : Vec Ideal S5000x128 .f32) (wb : Vec Ideal S128x128 .f32) (r : Fin 5000) (q : Fin 128) :
    k0_pay1 xb wb (ix2 r q) = ∑ k : Fin 128, xb (ix2 r k) * wb (ix2 k q) := by
  unfold k0_pay1
  try simp only [shapeCast_self]
  exact Cert.Lib.matmul_zero_apply Cert.KernelIdeal.DotFacts.plain_tile xb wb _ r q

/-- Row r of X's block at point t is row 5000 t + r of X. -/
theorem x_block (c : Dev nD) (t : Fin cfg0.N) (r : Fin 5000) (k : Fin 128) (n : Fin 100000) (hn : n.val = t.val * 5000 + r.val) :
    (iblk0 V c 0 t : Vec Ideal S5000x128 .f32) (ix2 r k) = (V c main_arg0 : FVec Ideal S100000x128 .f32) (ix2 n k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 128 + 1 * k.val = k.val; rw [e1]; omega

/-- The weights' block at every point is the whole matrix. -/
theorem w_block (c : Dev nD) (t : Fin cfg0.N) (k q : Fin 128) :
    (iblk0 V c 1 t : Vec Ideal S128x128 .f32) (ix2 k q) = (V c main_arg3 : FVec Ideal S128x128 .f32) (ix2 k q) := by
  obtain ⟨-, -, e2, e3, -, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the whole product. -/
theorem flushed_eq (c : Dev nD) (t : Fin cfg0.N) :
    (dat0 V c).flushed 2 t = ((cfg0.win 2).blk t).view.read (Elt Ideal) (whole (V c main_arg0) (V c main_arg3)) := by
  have hN : t.val < 20 := lt_of_lt_of_eq t.isLt (N_0 : cfg0.N = 20)
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  refine funext fun (j : S5000x128.Idx) => ?_
  obtain ⟨r, q, rfl⟩ : ∃ (r : Fin 5000) (q : Fin 128), j = ix2 r q := ⟨j 0, j 1, eq_ix2 j⟩
  have hlt : t.val * 5000 + r.val < 100000 := by have := r.isLt; omega
  have hemb : ((cfg0.win 2).blk t).view.emb (ix2 r q) = (ix2 (⟨t.val * 5000 + r.val, hlt⟩ : Fin 100000) q : S100000x128.Idx) := by
    funext a; apply Fin.ext
    match a with
    | ⟨0, _⟩ => show win0_2.index t (0 : Fin 2) * 5000 + 1 * r.val = t.val * 5000 + r.val; rw [e4]; omega
    | ⟨1, _⟩ => show win0_2.index t (1 : Fin 2) * 128 + 1 * q.val = q.val; rw [e5]; omega
  show k0_pay1 (iblk0 V c 0 t) (iblk0 V c 1 t) (ix2 r q) = whole (V c main_arg0) (V c main_arg3) (((cfg0.win 2).blk t).view.emb (ix2 r q))
  rw [hemb]
  refine (tile_apply _ _ r q).trans ?_
  refine Eq.trans ?_ (Cert.Lib.dotGeneral_apply Cert.ReferenceIdeal.DotFacts.plain_whole _ _ _ q).symm
  exact Finset.sum_congr rfl fun k _ => congrArg₂ (· * ·) (x_block V c t r k ⟨_, hlt⟩ rfl) (w_block V c t k q)

/-- Every row of the result lies in the block of the point that its row number divided by 5000 names. -/
theorem covered (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 20 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  show i ∈ ((View.whole main_v30).slice (win0_2.rect ⟨(i 0).val / 5000, ht⟩)).set
  rw [View.set_slice_whole, Rect.mem_set_unit]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- THE RESULT ARRAY after the call: the plain product of the two arrays as the call found them. -/
theorem arr (c : Dev nD) : (dat0 V c).arrAt 2 cfg0.N = whole (V c main_arg0) (V c main_arg3) :=
  (dat0 V c).arrAt_eq_of_cover 2 (whole (V c main_arg0) (V c main_arg3)) (fun t _ => flushed_eq V c t) (fun i => covered i)

end Cert.KernelIdeal.Lin0

end
-- ==== Proof.Lin2.lean ====
/-
  The dense layer of pallas_call 2, read as one whole-array function.

  The call tiles the rows of X : [100000, 128] into 20 blocks of 5000 rows; at block t the body multiplies the block by
  the whole weight matrix w : [128, 128] on the matrix unit (operands narrowed to bf16, accumulated into zeros) and
  stores the [5000, 128] product into block t of the result. Over the extended reals narrowing is the identity and the
  tile's product at (r, q) is the sum over k of X (5000 t + r, k) * w (k, q): row 5000 t + r of the one product X * w
  that the plain program computes by a single dot_general. The 20 blocks tile the result's rows, so the result array
  after the call IS that dot_general of the two arrays as the call found them, whatever those are.
-/
import proofs.«111607_j7825430413942_1_alg».proof.Proof.Gen.KernelIdeal.Frame
import proofs.«111607_j7825430413942_1_alg».proof.Proof.DotFacts
import Idealize.ShloMosaic.Lib.Pipeline.Value
import Idealize.ShloMosaic.Lib.ValueIdx

noncomputable section

namespace Cert.KernelIdeal.Lin2

open Cert.KernelIdeal Cert.KernelIdeal.Gen Idealize.ShloMosaic Idealize.ShloMosaic.TcCoe Idealize.SL.Sem Idealize.ShloMosaic.ValueIdx
open Idealize.ShloMosaic.Pipeline (Dat)

-- The buffer contents the call is entered from: arbitrary.
variable (V : (c : Dev nD) → (b : Ref sig .tc) → Buf (Elt Ideal) ((c : Thread nD τ).loc b))

theorem hz : (![0, 0] : Fin 2 → Nat) = fun _ => 0 := funext fun a => by fin_cases a <;> rfl

/-- The plain program's product of the whole arrays. -/
abbrev whole (x : FVec Ideal S100000x128 .f32) (w : FVec Ideal S128x128 .f32) : FVec Ideal S100000x128 .f32 :=
  Host.dotGeneral Cert.ReferenceIdeal.dot_S100000x128_S128x128_S100000x128_1_0_0_1_n_n none x w

/-- Block t of X and of the result is row block t, all columns; the weights' block is always the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product of a row tile and the weights, at (r, q): the sum over the contracted index. -/
theorem tile_apply (xb : Vec Ideal S5000x128 .f32) (wb : Vec Ideal S128x128 .f32) (r : Fin 5000) (q : Fin 128) :
    k2_pay1 xb wb (ix2 r q) = ∑ k : Fin 128, xb (ix2 r k) * wb (ix2 k q) := by
  unfold k2_pay1
  try simp only [shapeCast_self]
  exact Cert.Lib.matmul_zero_apply Cert.KernelIdeal.DotFacts.plain_tile xb wb _ r q

/-- Row r of X's block at point t is row 5000 t + r of X. -/
theorem x_block (c : Dev nD) (t : Fin cfg2.N) (r : Fin 5000) (k : Fin 128) (n : Fin 100000) (hn : n.val = t.val * 5000 + r.val) :
    (iblk2 V c 0 t : Vec Ideal S5000x128 .f32) (ix2 r k) = (V c main_v44 : FVec Ideal S100000x128 .f32) (ix2 n k) := by
  obtain ⟨e0, e1, -, -, -, -⟩ := idx_facts t
  unfold iblk2
  rw [View.read_apply]
  show V c main_v44 _ = V c main_v44 _
  congr 1
  funext a
  apply Fin.ext
  match a with
  | ⟨0, _⟩ => show win2_0.index t (0 : Fin 2) * 5000 + 1 * r.val = n.val; rw [e0, hn]; omega
  | ⟨1, _⟩ => show win2_0.index t (1 : Fin 2) * 128 + 1 * k.val = k.val; rw [e1]; omega

/-- The weights' block at every point is the whole matrix. -/
theorem w_block (c : Dev nD) (t : Fin cfg2.N) (k q : Fin 128) :
    (iblk2 V c 1 t : Vec Ideal S128x128 .f32) (ix2 k q) = (V c main_arg5 : FVec Ideal S128x128 .f32) (ix2 k q) := by
  obtain ⟨-, -, e2, e3, -, -⟩ := idx_facts t
  unfold iblk2
  rw [View.read_apply]
  show V c main_arg5 _ = V c main_arg5 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the whole product. -/
theorem flushed_eq (c : Dev nD) (t : Fin cfg2.N) :
    (dat2 V c).flushed 2 t = ((cfg2.win 2).blk t).view.read (Elt Ideal) (whole (V c main_v44) (V c main_arg5)) := by
  have hN : t.val < 20 := lt_of_lt_of_eq t.isLt (N_2 : cfg2.N = 20)
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  refine funext fun (j : S5000x128.Idx) => ?_
  obtain ⟨r, q, rfl⟩ : ∃ (r : Fin 5000) (q : Fin 128), j = ix2 r q := ⟨j 0, j 1, eq_ix2 j⟩
  have hlt : t.val * 5000 + r.val < 100000 := by have := r.isLt; omega
  have hemb : ((cfg2.win 2).blk t).view.emb (ix2 r q) = (ix2 (⟨t.val * 5000 + r.val, hlt⟩ : Fin 100000) q : S100000x128.Idx) := by
    funext a; apply Fin.ext
    match a with
    | ⟨0, _⟩ => show win2_2.index t (0 : Fin 2) * 5000 + 1 * r.val = t.val * 5000 + r.val; rw [e4]; omega
    | ⟨1, _⟩ => show win2_2.index t (1 : Fin 2) * 128 + 1 * q.val = q.val; rw [e5]; omega
  show k2_pay1 (iblk2 V c 0 t) (iblk2 V c 1 t) (ix2 r q) = whole (V c main_v44) (V c main_arg5) (((cfg2.win 2).blk t).view.emb (ix2 r q))
  rw [hemb]
  refine (tile_apply _ _ r q).trans ?_
  refine Eq.trans ?_ (Cert.Lib.dotGeneral_apply Cert.ReferenceIdeal.DotFacts.plain_whole _ _ _ q).symm
  exact Finset.sum_congr rfl fun k _ => congrArg₂ (· * ·) (x_block V c t r k ⟨_, hlt⟩ rfl) (w_block V c t k q)

/-- Every row of the result lies in the block of the point that its row number divided by 5000 names. -/
theorem covered (i : S100000x128.Idx) : ∃ t : Fin cfg2.N, (cfg2.win 2).flush t = true ∧ i ∈ ((cfg2.win 2).blk t).view.set := by
  have h0 : (i 0).val < 100000 := (i 0).isLt
  have h1 : (i 1).val < 128 := (i 1).isLt
  have hN : cfg2.N = 20 := N_2
  have ht : (i 0).val / 5000 < cfg2.N := by rw [hN]; omega
  obtain ⟨-, -, -, -, e4, e5⟩ := idx_facts ⟨(i 0).val / 5000, ht⟩
  refine ⟨⟨(i 0).val / 5000, ht⟩, flush2_2 _, ?_⟩
  show i ∈ ((View.whole main_v45).slice (win2_2.rect ⟨(i 0).val / 5000, ht⟩)).set
  rw [View.set_slice_whole, Rect.mem_set_unit]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- THE RESULT ARRAY after the call: the plain product of the two arrays as the call found them. -/
theorem arr (c : Dev nD) : (dat2 V c).arrAt 2 cfg2.N = whole (V c main_v44) (V c main_arg5) :=
  (dat2 V c).arrAt_eq_of_cover 2 (whole (V c main_v44) (V c main_arg5)) (fun t _ => flushed_eq V c t) (fun i => covered i)

end Cert.KernelIdeal.Lin2

end
-- ==== Proof.BiasRelu1.lean ====
/-
  The bias-and-rectify pass of pallas_call 1, read as one whole-array function.

  The call tiles the rows of A : [100000, 128] into 20 blocks of 5000 rows and keeps the bias vector b : [128] whole; at
  block t the body adds b, broadcast over the rows, to the block and takes the maximum with zero, and stores the
  [5000, 128] result into block t of the output. So the entry (5000 t + r, q) of the output is
  max (A (5000 t + r, q) + b q) 0: what the plain program computes over the whole array by a broadcast of b to
  [1, 128] and then to [100000, 128], an add, and a maximum with the broadcast zero. The 20 blocks tile the rows, so
  the output array after the call IS that function of the two arrays as the call found them, whatever those are.
-/
import proofs.«111607_j7825430413942_1_alg».proof.Proof.Gen.KernelIdeal.Frame
import proofs.«111607_j7825430413942_1_alg».proof.Proof.Gen.ReferenceIdeal
import proofs.«111607_j7825430413942_1_alg».proof.Proof.LibAffineRows
import Idealize.ShloMosaic.Lib.Pipeline.Value
import Idealize.ShloMosaic.Lib.ValueIdx
import Idealize.ShloMosaic.Lib.ValueLayout

noncomputable section

namespace Cert.KernelIdeal.BiasRelu1

open Cert.KernelIdeal Cert.KernelIdeal.Gen Idealize.ShloMosaic Idealize.ShloMosaic.TcCoe Idealize.SL.Sem Idealize.ShloMosaic.ValueIdx
open Idealize.ShloMosaic.Pipeline (Dat)

-- The buffer contents the call is entered from: arbitrary.
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The plain program's bias add and rectification over the whole arrays. -/
abbrev whole (a : FVec Ideal S100000x128 .f32) (b : FVec Ideal S128 .f32) : FVec Ideal S100000x128 .f32 :=
  maximumf (addf a (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b)))
    (broadcastInDim Cert.ReferenceIdeal.S100000x128 ![] Cert.ReferenceIdeal.Gen.bcast_S_S100000x128 (constant Cert.ReferenceIdeal.S_ .f32 0x00000000#32))

/-- At (n, q) it is max (a (n, q) + b q) 0. -/
theorem whole_apply (a : FVec Ideal S100000x128 .f32) (b : FVec Ideal S128 .f32) (n : Fin 100000) (q : Fin 128) :
    whole a b (ix2 n q) = max (a (ix2 n q) + b (ix1 q)) (Ideal.ofBits .f32 0x00000000#32) := by
  have hb := Cert.Lib.bias_rows_apply (N := 100000) b Cert.ReferenceIdeal.Gen.bcast_S128_S1x128_1 Cert.ReferenceIdeal.Gen.bcast_S1x128_S100000x128_0_1 n q
  show max (a (ix2 n q) + broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 n q)) _ = _
  rw [hb]
  rfl

/-- Block t of A and of the output is row block t, all columns; the bias block is always the whole vector. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The body's result on a row tile and the bias vector, at (r, q): max (tile (r, q) + bias q) 0. -/
theorem tile_apply (bb : Vec Ideal S128 .f32) (ab : Vec Ideal S5000x128 .f32) (r : Fin 5000) (q : Fin 128) :
    k1_pay1 bb ab (ix2 r q) = max (ab (ix2 r q) + bb (ix1 q)) (Ideal.ofBits .f32 0x00000000#32) := by
  have hb : broadcastTo S5000x128 (shapeCast S1x128 bb shapeCasts_S128_S1x128) broadcasts_S1x128_S5000x128 (ix2 r q) = bb (ix1 q) := by
    rw [broadcastTo_1b_ab_apply, shapeCast_addUnit_apply]
    exact congrArg bb (funext fun a => by match a with | ⟨0, _⟩ => rfl)
  unfold k1_pay1
  show max (shapeCast S5000x128 ab shapeCasts_S5000x128_S5000x128 (ix2 r q)
      + broadcastTo S5000x128 (shapeCast S1x128 bb shapeCasts_S128_S1x128) broadcasts_S1x128_S5000x128 (ix2 r q)) _ = _
  rw [hb, shapeCast_self]
  rfl

/-- Row r of A's block at point t is row 5000 t + r of A. -/
theorem a_block (c : Dev nD) (t : Fin cfg1.N) (r : Fin 5000) (q : Fin 128) (n : Fin 100000) (hn : n.val = t.val * 5000 + r.val) :
    (iblk1 V c 0 t : Vec Ideal S5000x128 .f32) (ix2 r q) = (V c main_v43 : FVec Ideal S100000x128 .f32) (ix2 n q) := by
  obtain ⟨e0, e1, -, -, -⟩ := idx_facts t
  unfold iblk1
  rw [View.read_apply]
  show V c main_v43 _ = V c main_v43 _
  congr 1
  funext a
  apply Fin.ext
  match a with
  | ⟨0, _⟩ => show win1_0.index t (0 : Fin 2) * 5000 + 1 * r.val = n.val; rw [e0, hn]; omega
  | ⟨1, _⟩ => show win1_0.index t (1 : Fin 2) * 128 + 1 * q.val = q.val; rw [e1]; omega

/-- The bias block at every point is the whole vector. -/
theorem b_block (c : Dev nD) (t : Fin cfg1.N) (q : Fin 128) :
    (iblk1 V c 1 t : Vec Ideal S128 .f32) (ix1 q) = (V c main_arg4 : FVec Ideal S128 .f32) (ix1 q) := by
  obtain ⟨-, -, e2, -, -⟩ := idx_facts t
  unfold iblk1
  rw [View.read_apply]
  show V c main_arg4 _ = V c main_arg4 _
  congr 1
  funext a
  apply Fin.ext
  match a with
  | ⟨0, _⟩ => show win1_1.index t (0 : Fin 1) * 128 + 1 * q.val = q.val; rw [e2]; omega

/-- What point t writes back is block t of the whole-array function. -/
theorem flushed_eq (c : Dev nD) (t : Fin cfg1.N) :
    (dat1 V c).flushed 2 t = ((cfg1.win 2).blk t).view.read (Elt Ideal) (whole (V c main_v43) (V c main_arg4)) := by
  have hN : t.val < 20 := lt_of_lt_of_eq t.isLt (N_1 : cfg1.N = 20)
  obtain ⟨-, -, -, e3, e4⟩ := idx_facts t
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  refine funext fun (j : S5000x128.Idx) => ?_
  obtain ⟨r, q, rfl⟩ : ∃ (r : Fin 5000) (q : Fin 128), j = ix2 r q := ⟨j 0, j 1, eq_ix2 j⟩
  have hlt : t.val * 5000 + r.val < 100000 := by have := r.isLt; omega
  have hemb : ((cfg1.win 2).blk t).view.emb (ix2 r q) = (ix2 (⟨t.val * 5000 + r.val, hlt⟩ : Fin 100000) q : S100000x128.Idx) := by
    funext a; apply Fin.ext
    match a with
    | ⟨0, _⟩ => show win1_2.index t (0 : Fin 2) * 5000 + 1 * r.val = t.val * 5000 + r.val; rw [e3]; omega
    | ⟨1, _⟩ => show win1_2.index t (1 : Fin 2) * 128 + 1 * q.val = q.val; rw [e4]; omega
  show k1_pay1 (iblk1 V c 1 t) (iblk1 V c 0 t) (ix2 r q) = whole (V c main_v43) (V c main_arg4) (((cfg1.win 2).blk t).view.emb (ix2 r q))
  rw [hemb]
  refine (tile_apply _ _ r q).trans ?_
  refine Eq.trans ?_ (whole_apply _ _ _ q).symm
  exact congrArg₂ max (congrArg₂ (· + ·) (a_block V c t r q ⟨_, hlt⟩ rfl) (b_block V c t q)) rfl

/-- Every row of the output lies in the block of the point that its row number divided by 5000 names. -/
theorem covered (i : S100000x128.Idx) : ∃ t : Fin cfg1.N, (cfg1.win 2).flush t = true ∧ i ∈ ((cfg1.win 2).blk t).view.set := by
  have h0 : (i 0).val < 100000 := (i 0).isLt
  have h1 : (i 1).val < 128 := (i 1).isLt
  have hN : cfg1.N = 20 := N_1
  have ht : (i 0).val / 5000 < cfg1.N := by rw [hN]; omega
  obtain ⟨-, -, -, e3, e4⟩ := idx_facts ⟨(i 0).val / 5000, ht⟩
  refine ⟨⟨(i 0).val / 5000, ht⟩, flush1_2 _, ?_⟩
  show i ∈ ((View.whole main_v44).slice (win1_2.rect ⟨(i 0).val / 5000, ht⟩)).set
  rw [View.set_slice_whole, Rect.mem_set_unit]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e4]; omega

/-- THE OUTPUT ARRAY after the call: the bias add and rectification of the two arrays as the call found them. -/
theorem arr (c : Dev nD) : (dat1 V c).arrAt 2 cfg1.N = whole (V c main_v43) (V c main_arg4) :=
  (dat1 V c).arrAt_eq_of_cover 2 (whole (V c main_v43) (V c main_arg4)) (fun t _ => flushed_eq V c t) (fun i => covered i)

end Cert.KernelIdeal.BiasRelu1

end
-- ==== Proof.BiasRelu3.lean ====
/-
  The bias-and-rectify pass of pallas_call 3, read as one whole-array function.

  The call tiles the rows of A : [100000, 128] into 20 blocks of 5000 rows and keeps the bias vector b : [128] whole; at
  block t the body adds b, broadcast over the rows, to the block and takes the maximum with zero, and stores the
  [5000, 128] result into block t of the output. So the entry (5000 t + r, q) of the output is
  max (A (5000 t + r, q) + b q) 0: what the plain program computes over the whole array by a broadcast of b to
  [1, 128] and then to [100000, 128], an add, and a maximum with the broadcast zero. The 20 blocks tile the rows, so
  the output array after the call IS that function of the two arrays as the call found them, whatever those are.
-/
import proofs.«111607_j7825430413942_1_alg».proof.Proof.Gen.KernelIdeal.Frame
import proofs.«111607_j7825430413942_1_alg».proof.Proof.Gen.ReferenceIdeal
import proofs.«111607_j7825430413942_1_alg».proof.Proof.LibAffineRows
import Idealize.ShloMosaic.Lib.Pipeline.Value
import Idealize.ShloMosaic.Lib.ValueIdx
import Idealize.ShloMosaic.Lib.ValueLayout

noncomputable section

namespace Cert.KernelIdeal.BiasRelu3

open Cert.KernelIdeal Cert.KernelIdeal.Gen Idealize.ShloMosaic Idealize.ShloMosaic.TcCoe Idealize.SL.Sem Idealize.ShloMosaic.ValueIdx
open Idealize.ShloMosaic.Pipeline (Dat)

-- The buffer contents the call is entered from: arbitrary.
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The plain program's bias add and rectification over the whole arrays. -/
abbrev whole (a : FVec Ideal S100000x128 .f32) (b : FVec Ideal S128 .f32) : FVec Ideal S100000x128 .f32 :=
  maximumf (addf a (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b)))
    (broadcastInDim Cert.ReferenceIdeal.S100000x128 ![] Cert.ReferenceIdeal.Gen.bcast_S_S100000x128 (constant Cert.ReferenceIdeal.S_ .f32 0x00000000#32))

/-- At (n, q) it is max (a (n, q) + b q) 0. -/
theorem whole_apply (a : FVec Ideal S100000x128 .f32) (b : FVec Ideal S128 .f32) (n : Fin 100000) (q : Fin 128) :
    whole a b (ix2 n q) = max (a (ix2 n q) + b (ix1 q)) (Ideal.ofBits .f32 0x00000000#32) := by
  have hb := Cert.Lib.bias_rows_apply (N := 100000) b Cert.ReferenceIdeal.Gen.bcast_S128_S1x128_1 Cert.ReferenceIdeal.Gen.bcast_S1x128_S100000x128_0_1 n q
  show max (a (ix2 n q) + broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 n q)) _ = _
  rw [hb]
  rfl

/-- Block t of A and of the output is row block t, all columns; the bias block is always the whole vector. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The body's result on a row tile and the bias vector, at (r, q): max (tile (r, q) + bias q) 0. -/
theorem tile_apply (bb : Vec Ideal S128 .f32) (ab : Vec Ideal S5000x128 .f32) (r : Fin 5000) (q : Fin 128) :
    k3_pay1 bb ab (ix2 r q) = max (ab (ix2 r q) + bb (ix1 q)) (Ideal.ofBits .f32 0x00000000#32) := by
  have hb : broadcastTo S5000x128 (shapeCast S1x128 bb shapeCasts_S128_S1x128) broadcasts_S1x128_S5000x128 (ix2 r q) = bb (ix1 q) := by
    rw [broadcastTo_1b_ab_apply, shapeCast_addUnit_apply]
    exact congrArg bb (funext fun a => by match a with | ⟨0, _⟩ => rfl)
  unfold k3_pay1
  show max (shapeCast S5000x128 ab shapeCasts_S5000x128_S5000x128 (ix2 r q)
      + broadcastTo S5000x128 (shapeCast S1x128 bb shapeCasts_S128_S1x128) broadcasts_S1x128_S5000x128 (ix2 r q)) _ = _
  rw [hb, shapeCast_self]
  rfl

/-- Row r of A's block at point t is row 5000 t + r of A. -/
theorem a_block (c : Dev nD) (t : Fin cfg3.N) (r : Fin 5000) (q : Fin 128) (n : Fin 100000) (hn : n.val = t.val * 5000 + r.val) :
    (iblk3 V c 0 t : Vec Ideal S5000x128 .f32) (ix2 r q) = (V c main_v58 : FVec Ideal S100000x128 .f32) (ix2 n q) := by
  obtain ⟨e0, e1, -, -, -⟩ := idx_facts t
  unfold iblk3
  rw [View.read_apply]
  show V c main_v58 _ = V c main_v58 _
  congr 1
  funext a
  apply Fin.ext
  match a with
  | ⟨0, _⟩ => show win3_0.index t (0 : Fin 2) * 5000 + 1 * r.val = n.val; rw [e0, hn]; omega
  | ⟨1, _⟩ => show win3_0.index t (1 : Fin 2) * 128 + 1 * q.val = q.val; rw [e1]; omega

/-- The bias block at every point is the whole vector. -/
theorem b_block (c : Dev nD) (t : Fin cfg3.N) (q : Fin 128) :
    (iblk3 V c 1 t : Vec Ideal S128 .f32) (ix1 q) = (V c main_arg6 : FVec Ideal S128 .f32) (ix1 q) := by
  obtain ⟨-, -, e2, -, -⟩ := idx_facts t
  unfold iblk3
  rw [View.read_apply]
  show V c main_arg6 _ = V c main_arg6 _
  congr 1
  funext a
  apply Fin.ext
  match a with
  | ⟨0, _⟩ => show win3_1.index t (0 : Fin 1) * 128 + 1 * q.val = q.val; rw [e2]; omega

/-- What point t writes back is block t of the whole-array function. -/
theorem flushed_eq (c : Dev nD) (t : Fin cfg3.N) :
    (dat3 V c).flushed 2 t = ((cfg3.win 2).blk t).view.read (Elt Ideal) (whole (V c main_v58) (V c main_arg6)) := by
  have hN : t.val < 20 := lt_of_lt_of_eq t.isLt (N_3 : cfg3.N = 20)
  obtain ⟨-, -, -, e3, e4⟩ := idx_facts t
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1]
  refine funext fun (j : S5000x128.Idx) => ?_
  obtain ⟨r, q, rfl⟩ : ∃ (r : Fin 5000) (q : Fin 128), j = ix2 r q := ⟨j 0, j 1, eq_ix2 j⟩
  have hlt : t.val * 5000 + r.val < 100000 := by have := r.isLt; omega
  have hemb : ((cfg3.win 2).blk t).view.emb (ix2 r q) = (ix2 (⟨t.val * 5000 + r.val, hlt⟩ : Fin 100000) q : S100000x128.Idx) := by
    funext a; apply Fin.ext
    match a with
    | ⟨0, _⟩ => show win3_2.index t (0 : Fin 2) * 5000 + 1 * r.val = t.val * 5000 + r.val; rw [e3]; omega
    | ⟨1, _⟩ => show win3_2.index t (1 : Fin 2) * 128 + 1 * q.val = q.val; rw [e4]; omega
  show k3_pay1 (iblk3 V c 1 t) (iblk3 V c 0 t) (ix2 r q) = whole (V c main_v58) (V c main_arg6) (((cfg3.win 2).blk t).view.emb (ix2 r q))
  rw [hemb]
  refine (tile_apply _ _ r q).trans ?_
  refine Eq.trans ?_ (whole_apply _ _ _ q).symm
  exact congrArg₂ max (congrArg₂ (· + ·) (a_block V c t r q ⟨_, hlt⟩ rfl) (b_block V c t q)) rfl

/-- Every row of the output lies in the block of the point that its row number divided by 5000 names. -/
theorem covered (i : S100000x128.Idx) : ∃ t : Fin cfg3.N, (cfg3.win 2).flush t = true ∧ i ∈ ((cfg3.win 2).blk t).view.set := by
  have h0 : (i 0).val < 100000 := (i 0).isLt
  have h1 : (i 1).val < 128 := (i 1).isLt
  have hN : cfg3.N = 20 := N_3
  have ht : (i 0).val / 5000 < cfg3.N := by rw [hN]; omega
  obtain ⟨-, -, -, e3, e4⟩ := idx_facts ⟨(i 0).val / 5000, ht⟩
  refine ⟨⟨(i 0).val / 5000, ht⟩, flush3_2 _, ?_⟩
  show i ∈ ((View.whole main_v59).slice (win3_2.rect ⟨(i 0).val / 5000, ht⟩)).set
  rw [View.set_slice_whole, Rect.mem_set_unit]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e4]; omega

/-- THE OUTPUT ARRAY after the call: the bias add and rectification of the two arrays as the call found them. -/
theorem arr (c : Dev nD) : (dat3 V c).arrAt 2 cfg3.N = whole (V c main_v58) (V c main_arg6) :=
  (dat3 V c).arrAt_eq_of_cover 2 (whole (V c main_v58) (V c main_arg6)) (fun t _ => flushed_eq V c t) (fun i => covered i)

end Cert.KernelIdeal.BiasRelu3

end
-- ==== Proof.StagesA.lean ====
/-
  The host operations before the first pallas_call, read stretch by stretch from arbitrary starting contents X.

  They compute, from the edge list e : [2, 1600000], the source indices (row 0 of e followed by 0 … 99999: a self loop per
  node), the destination indices (row 1 of e followed by the same), the degree of each node as a scatter-add of ones over
  the destinations, its inverse square root where the degree is positive and zero elsewhere, and the edge weights
  dinv[src] * dinv[dst]. The plain program performs the same operations in the same order, so each buffer a stretch
  writes holds the plain program's value of the same name as soon as the buffers it reads do.
-/
import proofs.«111607_j7825430413942_1_alg».proof.Proof.Gen.KernelIdeal.Launch
import proofs.«111607_j7825430413942_1_alg».proof.Proof.RefRead
import Idealize.ShloMosaic.Lib.StableHlo.Run

set_option maxRecDepth 16384

noncomputable section

namespace Cert.KernelIdeal.StagesA

open Cert.KernelIdeal Cert.KernelIdeal.Gen Idealize.ShloMosaic Idealize.ShloMosaic.TcCoe Idealize.SL.Sem Idealize.ShloMosaic.StableHlo
open Cert.ReferenceIdeal.ReadP

/-- The argument arrays' types. -/
abbrev A0 := (⟨S100000x128, .f32⟩ : BufTy).Contents (Elt Ideal)
abbrev A1 := (⟨S2x1600000, .i32⟩ : BufTy).Contents (Elt Ideal)
abbrev A2 := (⟨S4096, .i32⟩ : BufTy).Contents (Elt Ideal)
abbrev A3 := (⟨S128x128, .f32⟩ : BufTy).Contents (Elt Ideal)
abbrev A4 := (⟨S128, .f32⟩ : BufTy).Contents (Elt Ideal)
abbrev A7 := (⟨S128x2, .f32⟩ : BufTy).Contents (Elt Ideal)
abbrev A8 := (⟨S2, .f32⟩ : BufTy).Contents (Elt Ideal)

-- The buffer contents a stretch of host operations starts from: arbitrary.
variable (X : Valuation τ sig (Elt Ideal))

/-! ## The first stretch: indices, degrees, their comparison with zero and their inverse square roots -/

theorem s0_v3 (x1 : A1) (h1 : X (Proc.devRef .tc main_arg1) = x1) :
    after hostOps0 X (Proc.devRef .tc main_v3) = val_main_v3 (F := Ideal) x1 := by
  subst h1; after_results <;> rfl
theorem s0_v6 (x1 : A1) (h1 : X (Proc.devRef .tc main_arg1) = x1) :
    after hostOps0 X (Proc.devRef .tc main_v6) = val_main_v6 (F := Ideal) x1 := by
  subst h1; after_results <;> rfl
theorem s0_v12 (x1 : A1) (h1 : X (Proc.devRef .tc main_arg1) = x1) :
    after hostOps0 X (Proc.devRef .tc main_v12) = val_main_v12 (F := Ideal) x1 := by
  subst h1; after_results <;> rfl
theorem s0_v13 (x1 : A1) (h1 : X (Proc.devRef .tc main_arg1) = x1) :
    after hostOps0 X (Proc.devRef .tc main_v13) = val_main_v13 (F := Ideal) x1 := by
  subst h1; after_results <;> rfl
theorem s0_cst_2 : after hostOps0 X (Proc.devRef .tc main_cst_2) = val_main_cst_2 (F := Ideal) := by
  after_results <;> rfl

/-! ## The second stretch: the inverse square root where the degree is positive, zero elsewhere -/

theorem s01_v14 (x1 : A1) (h12 : X (Proc.devRef .tc main_v12) = val_main_v12 (F := Ideal) x1)
    (h13 : X (Proc.devRef .tc main_v13) = val_main_v13 (F := Ideal) x1)
    (hc : X (Proc.devRef .tc main_cst_2) = val_main_cst_2 (F := Ideal)) :
    after hostOps0_1 X (Proc.devRef .tc main_v14) = val_main_v14 (F := Ideal) x1 := by
  after_results
  try simp only [TRef.ofBuf, TRef.toBuf, cast_eq]
  rw [h12, h13, hc]
  rfl
theorem s01_keep_v3 : after hostOps0_1 X (Proc.devRef .tc main_v3) = X (Proc.devRef .tc main_v3) := by
  after_results <;> rfl
theorem s01_keep_v6 : after hostOps0_1 X (Proc.devRef .tc main_v6) = X (Proc.devRef .tc main_v6) := by
  after_results <;> rfl

/-! ## The third stretch: the edge weights -/

set_option maxHeartbeats 1000000 in
theorem s02_v29 (x1 : A1) (h3 : X (Proc.devRef .tc main_v3) = val_main_v3 (F := Ideal) x1)
    (h6 : X (Proc.devRef .tc main_v6) = val_main_v6 (F := Ideal) x1)
    (h14 : X (Proc.devRef .tc main_v14) = val_main_v14 (F := Ideal) x1) :
    after hostOps0_2 X (Proc.devRef .tc main_v29) = val_main_v29 (F := Ideal) x1 := by
  after_results_simp
  rw [h3, h6, h14]
  rfl
theorem s02_keep_v3 : after hostOps0_2 X (Proc.devRef .tc main_v3) = X (Proc.devRef .tc main_v3) := by
  after_results <;> rfl
theorem s02_keep_v6 : after hostOps0_2 X (Proc.devRef .tc main_v6) = X (Proc.devRef .tc main_v6) := by
  after_results <;> rfl

end Cert.KernelIdeal.StagesA

end
-- ==== Proof.StagesB.lean ====
/-
  The host operations between the pallas_calls, read from arbitrary starting contents X.

  After each dense product H : [100000, 128] the program gathers the rows H[src], scales each by its edge weight and
  scatter-adds the scaled rows into the rows dst of a zero array: the aggregation of one graph-convolution layer. The
  plain program aggregates with the same operations in the same order, so the aggregated array is the plain program's as
  soon as the product, the two index arrays and the weights it reads are.
-/
import proofs.«111607_j7825430413942_1_alg».proof.Proof.Gen.KernelIdeal.Launch
import proofs.«111607_j7825430413942_1_alg».proof.Proof.RefRead
import Idealize.ShloMosaic.Lib.StableHlo.Run

set_option maxRecDepth 16384

noncomputable section

namespace Cert.KernelIdeal.StagesB

open Cert.KernelIdeal Cert.KernelIdeal.Gen Idealize.ShloMosaic Idealize.ShloMosaic.TcCoe Idealize.SL.Sem Idealize.ShloMosaic.StableHlo
open Cert.ReferenceIdeal.ReadP

/-- The argument arrays' types. -/
abbrev A0 := (⟨S100000x128, .f32⟩ : BufTy).Contents (Elt Ideal)
abbrev A1 := (⟨S2x1600000, .i32⟩ : BufTy).Contents (Elt Ideal)
abbrev A2 := (⟨S4096, .i32⟩ : BufTy).Contents (Elt Ideal)
abbrev A3 := (⟨S128x128, .f32⟩ : BufTy).Contents (Elt Ideal)
abbrev A4 := (⟨S128, .f32⟩ : BufTy).Contents (Elt Ideal)
abbrev A7 := (⟨S128x2, .f32⟩ : BufTy).Contents (Elt Ideal)
abbrev A8 := (⟨S2, .f32⟩ : BufTy).Contents (Elt Ideal)

-- The buffer contents a stretch of host operations starts from: arbitrary.
variable (X : Valuation τ sig (Elt Ideal))

/-! ## The aggregation after the first product -/

set_option maxHeartbeats 1000000 in
theorem s1_v43 (x0 : A0) (x1 : A1) (x3 : A3)
    (h30 : X (Proc.devRef .tc main_v30) = val_main_v30 (F := Ideal) x0 x3)
    (h3 : X (Proc.devRef .tc main_v3) = val_main_v3 (F := Ideal) x1)
    (h6 : X (Proc.devRef .tc main_v6) = val_main_v6 (F := Ideal) x1)
    (h29 : X (Proc.devRef .tc main_v29) = val_main_v29 (F := Ideal) x1) :
    after hostOps1 X (Proc.devRef .tc main_v43) = val_main_v43 (F := Ideal) x0 x1 x3 := by
  after_results_simp
  rw [h30, h3, h6, h29]
  rfl
theorem s1_keep_v3 : after hostOps1 X (Proc.devRef .tc main_v3) = X (Proc.devRef .tc main_v3) := by
  after_results <;> rfl
theorem s1_keep_v6 : after hostOps1 X (Proc.devRef .tc main_v6) = X (Proc.devRef .tc main_v6) := by
  after_results <;> rfl
theorem s1_keep_v29 : after hostOps1 X (Proc.devRef .tc main_v29) = X (Proc.devRef .tc main_v29) := by
  after_results <;> rfl

/-! ## The aggregation after the second product -/

set_option maxHeartbeats 1000000 in
theorem s3_v58 (x0 : A0) (x1 : A1) (x3 : A3) (x4 : A4) (x5 : A3)
    (h45 : X (Proc.devRef .tc main_v45) = val_main_v48 (F := Ideal) x0 x1 x3 x4 x5)
    (h3 : X (Proc.devRef .tc main_v3) = val_main_v3 (F := Ideal) x1)
    (h6 : X (Proc.devRef .tc main_v6) = val_main_v6 (F := Ideal) x1)
    (h29 : X (Proc.devRef .tc main_v29) = val_main_v29 (F := Ideal) x1) :
    after hostOps3 X (Proc.devRef .tc main_v58) = val_main_v61 (F := Ideal) x0 x1 x3 x4 x5 := by
  after_results_simp
  rw [h45, h3, h6, h29]
  rfl

end Cert.KernelIdeal.StagesB

end
-- ==== Proof.StagesC.lean ====
/-
  The host operations after the last pallas_call, read stretch by stretch from arbitrary starting contents X.

  From the second layer's features H2 : [100000, 128] the program computes the class scores max (H2 * Wl + bl) 0,
  gathers the scores and the features of the 4096 batch nodes, and takes the log-softmax of the gathered scores over
  the two classes. The plain program ends with the same operations in the same order, so each result is the plain
  program's as soon as H2 and the arguments read are.
-/
import proofs.«111607_j7825430413942_1_alg».proof.Proof.Gen.KernelIdeal.Launch
import proofs.«111607_j7825430413942_1_alg».proof.Proof.RefRead
import Idealize.ShloMosaic.Lib.StableHlo.Run

set_option maxRecDepth 16384

noncomputable section

namespace Cert.KernelIdeal.StagesC

open Cert.KernelIdeal Cert.KernelIdeal.Gen Idealize.ShloMosaic Idealize.ShloMosaic.TcCoe Idealize.SL.Sem Idealize.ShloMosaic.StableHlo
open Cert.ReferenceIdeal.ReadP

/-- The argument arrays' types. -/
abbrev A0 := (⟨S100000x128, .f32⟩ : BufTy).Contents (Elt Ideal)
abbrev A1 := (⟨S2x1600000, .i32⟩ : BufTy).Contents (Elt Ideal)
abbrev A2 := (⟨S4096, .i32⟩ : BufTy).Contents (Elt Ideal)
abbrev A3 := (⟨S128x128, .f32⟩ : BufTy).Contents (Elt Ideal)
abbrev A4 := (⟨S128, .f32⟩ : BufTy).Contents (Elt Ideal)
abbrev A7 := (⟨S128x2, .f32⟩ : BufTy).Contents (Elt Ideal)
abbrev A8 := (⟨S2, .f32⟩ : BufTy).Contents (Elt Ideal)

-- The buffer contents a stretch of host operations starts from: arbitrary.
variable (X : Valuation τ sig (Elt Ideal))

/-! ## The class scores before rectification -/

theorem s4_v63 (x0 : A0) (x1 : A1) (x3 : A3) (x4 : A4) (x5 : A3) (x6 : A4) (x7 : A7) (x8 : A8)
    (h59 : X (Proc.devRef .tc main_v59) = val_main_v65 (F := Ideal) x0 x1 x3 x4 x5 x6)
    (h7 : X (Proc.devRef .tc main_arg7) = x7) (h8 : X (Proc.devRef .tc main_arg8) = x8) :
    after hostOps4 X (Proc.devRef .tc main_v63) = val_main_v69 (F := Ideal) x0 x1 x3 x4 x5 x6 x7 x8 := by
  subst h7 h8
  after_results
  rw [h59]
  rfl
theorem s4_keep_v59 : after hostOps4 X (Proc.devRef .tc main_v59) = X (Proc.devRef .tc main_v59) := by
  after_results <;> rfl
theorem s4_keep_arg2 : after hostOps4 X (Proc.devRef .tc main_arg2) = X (Proc.devRef .tc main_arg2) := by
  after_results <;> rfl

/-! ## Their rectification -/

theorem s41_v64 (x0 : A0) (x1 : A1) (x3 : A3) (x4 : A4) (x5 : A3) (x6 : A4) (x7 : A7) (x8 : A8)
    (h63 : X (Proc.devRef .tc main_v63) = val_main_v69 (F := Ideal) x0 x1 x3 x4 x5 x6 x7 x8) :
    after hostOps4_1 X (Proc.devRef .tc main_v64) = val_main_v70 (F := Ideal) x0 x1 x3 x4 x5 x6 x7 x8 := by
  after_results
  try simp only [TRef.ofBuf, TRef.toBuf, cast_eq]
  rw [h63]
  rfl
theorem s41_keep_v59 : after hostOps4_1 X (Proc.devRef .tc main_v59) = X (Proc.devRef .tc main_v59) := by
  after_results <;> rfl
theorem s41_keep_arg2 : after hostOps4_1 X (Proc.devRef .tc main_arg2) = X (Proc.devRef .tc main_arg2) := by
  after_results <;> rfl

/-! ## The batch nodes' scores -/

theorem s42_v71 (x0 : A0) (x1 : A1) (x2 : A2) (x3 : A3) (x4 : A4) (x5 : A3) (x6 : A4) (x7 : A7) (x8 : A8)
    (h64 : X (Proc.devRef .tc main_v64) = val_main_v70 (F := Ideal) x0 x1 x3 x4 x5 x6 x7 x8)
    (h2 : X (Proc.devRef .tc main_arg2) = x2) :
    after hostOps4_2 X (Proc.devRef .tc main_v71) = val_main_v77 (F := Ideal) x0 x1 x2 x3 x4 x5 x6 x7 x8 := by
  subst h2
  after_results
  rw [h64]
  rfl
theorem s42_keep_v59 : after hostOps4_2 X (Proc.devRef .tc main_v59) = X (Proc.devRef .tc main_v59) := by
  after_results <;> rfl
theorem s42_keep_arg2 : after hostOps4_2 X (Proc.devRef .tc main_arg2) = X (Proc.devRef .tc main_arg2) := by
  after_results <;> rfl

/-! ## Their log-softmax -/

theorem s43_v72 (x0 : A0) (x1 : A1) (x2 : A2) (x3 : A3) (x4 : A4) (x5 : A3) (x6 : A4) (x7 : A7) (x8 : A8)
    (h71 : X (Proc.devRef .tc main_v71) = val_main_v77 (F := Ideal) x0 x1 x2 x3 x4 x5 x6 x7 x8) :
    after hostOps4_3 X (Proc.devRef .tc main_v72) = val_main_v78 (F := Ideal) x0 x1 x2 x3 x4 x5 x6 x7 x8 := by
  after_results
  try simp only [TRef.ofBuf, TRef.toBuf, cast_eq]
  rw [h71]
  rfl
theorem s43_keep_v71 : after hostOps4_3 X (Proc.devRef .tc main_v71) = X (Proc.devRef .tc main_v71) := by
  after_results <;> rfl
theorem s43_keep_v59 : after hostOps4_3 X (Proc.devRef .tc main_v59) = X (Proc.devRef .tc main_v59) := by
  after_results <;> rfl
theorem s43_keep_arg2 : after hostOps4_3 X (Proc.devRef .tc main_arg2) = X (Proc.devRef .tc main_arg2) := by
  after_results <;> rfl

/-! ## The batch nodes' features -/

theorem s44_v79 (x0 : A0) (x1 : A1) (x2 : A2) (x3 : A3) (x4 : A4) (x5 : A3) (x6 : A4)
    (h59 : X (Proc.devRef .tc main_v59) = val_main_v65 (F := Ideal) x0 x1 x3 x4 x5 x6)
    (h2 : X (Proc.devRef .tc main_arg2) = x2) :
    after hostOps4_4 X (Proc.devRef .tc main_v79) = val_main_v85 (F := Ideal) x0 x1 x2 x3 x4 x5 x6 := by
  subst h2
  after_results
  rw [h59]
  rfl
theorem s44_keep_v72 : after hostOps4_4 X (Proc.devRef .tc main_v72) = X (Proc.devRef .tc main_v72) := by
  after_results <;> rfl
theorem s44_keep_v71 : after hostOps4_4 X (Proc.devRef .tc main_v71) = X (Proc.devRef .tc main_v71) := by
  after_results <;> rfl

end Cert.KernelIdeal.StagesC

end
-- ==== Proof.Chain.lean ====
/-
  The program's three results as the plain program's functions of the arguments.

  The run's buffer contents are a fold through @main: a stretch of host operations after a stretch, a pallas_call's
  arrays after the call. Walking the fold forwards from the launch memory: the index and weight arrays of the graph are
  the plain program's (the same host operations); the first pallas_call leaves X * W1 (the dense layer read whole); the
  aggregation over the edges is the plain program's; the second call leaves max (agg + b1) 0; the third its product
  with W2; the aggregation again; the fourth call max (agg + b2) 0, the layer's features; and the closing host
  operations - the class scores, the two gathers at the batch nodes, the log-softmax - are the plain program's. No
  host operation and no call writes an argument array or an earlier stretch's index and weight arrays, so each is read
  back to where it was made.
-/
import proofs.«111607_j7825430413942_1_alg».proof.Proof.Gen.KernelIdeal.Frame
import proofs.«111607_j7825430413942_1_alg».proof.Proof.Lin0
import proofs.«111607_j7825430413942_1_alg».proof.Proof.Lin2
import proofs.«111607_j7825430413942_1_alg».proof.Proof.BiasRelu1
import proofs.«111607_j7825430413942_1_alg».proof.Proof.BiasRelu3
import proofs.«111607_j7825430413942_1_alg».proof.Proof.StagesA
import proofs.«111607_j7825430413942_1_alg».proof.Proof.StagesB
import proofs.«111607_j7825430413942_1_alg».proof.Proof.StagesC

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## The arguments' launch contents -/

abbrev X0 : StagesA.A0 := m ((c.tc : Thread nD τ).loc main_arg0)
abbrev X1 : StagesA.A1 := m ((c.tc : Thread nD τ).loc main_arg1)
abbrev X2 : StagesA.A2 := m ((c.tc : Thread nD τ).loc main_arg2)
abbrev X3 : StagesA.A3 := m ((c.tc : Thread nD τ).loc main_arg3)
abbrev X4 : StagesA.A4 := m ((c.tc : Thread nD τ).loc main_arg4)
abbrev X5 : StagesA.A3 := m ((c.tc : Thread nD τ).loc main_arg5)
abbrev X6 : StagesA.A4 := m ((c.tc : Thread nD τ).loc main_arg6)
abbrev X7 : StagesA.A7 := m ((c.tc : Thread nD τ).loc main_arg7)
abbrev X8 : StagesA.A8 := m ((c.tc : Thread nD τ).loc main_arg8)

/-! ## The arguments where the fold reads them: nothing on the way writes one -/

theorem W3_arg0 : W3 m ρ c (Proc.devRef .tc main_arg0) = X0 m c := by
  show after hostOps0_2 (after hostOps0_1 (after hostOps0 (W0 m ρ c))) (Proc.devRef .tc main_arg0) = _
  after_results_simp <;> rfl
theorem W3_arg3 : W3 m ρ c (Proc.devRef .tc main_arg3) = X3 m c := by
  show after hostOps0_2 (after hostOps0_1 (after hostOps0 (W0 m ρ c))) (Proc.devRef .tc main_arg3) = _
  after_results_simp <;> rfl
theorem W3_arg4 : W3 m ρ c (Proc.devRef .tc main_arg4) = X4 m c := by
  show after hostOps0_2 (after hostOps0_1 (after hostOps0 (W0 m ρ c))) (Proc.devRef .tc main_arg4) = _
  after_results_simp <;> rfl
theorem W3_arg5 : W3 m ρ c (Proc.devRef .tc main_arg5) = X5 m c := by
  show after hostOps0_2 (after hostOps0_1 (after hostOps0 (W0 m ρ c))) (Proc.devRef .tc main_arg5) = _
  after_results_simp <;> rfl
theorem W3_arg6 : W3 m ρ c (Proc.devRef .tc main_arg6) = X6 m c := by
  show after hostOps0_2 (after hostOps0_1 (after hostOps0 (W0 m ρ c))) (Proc.devRef .tc main_arg6) = _
  after_results_simp <;> rfl
theorem W3_arg7 : W3 m ρ c (Proc.devRef .tc main_arg7) = X7 m c := by
  show after hostOps0_2 (after hostOps0_1 (after hostOps0 (W0 m ρ c))) (Proc.devRef .tc main_arg7) = _
  after_results_simp <;> rfl
theorem W3_arg8 : W3 m ρ c (Proc.devRef .tc main_arg8) = X8 m c := by
  show after hostOps0_2 (after hostOps0_1 (after hostOps0 (W0 m ρ c))) (Proc.devRef .tc main_arg8) = _
  after_results_simp <;> rfl
theorem W3_arg2 : W3 m ρ c (Proc.devRef .tc main_arg2) = X2 m c := by
  show after hostOps0_2 (after hostOps0_1 (after hostOps0 (W0 m ρ c))) (Proc.devRef .tc main_arg2) = _
  after_results_simp <;> rfl

theorem W5_arg4 : W5 m ρ c (Proc.devRef .tc main_arg4) = X4 m c := by
  show after hostOps1 (W4 m ρ c) (Proc.devRef .tc main_arg4) = _
  after_results_simp
  rw [W4_of_ne m ρ c main_arg4 (by decide)]
  exact W3_arg4 m ρ c
theorem W5_arg5 : W5 m ρ c (Proc.devRef .tc main_arg5) = X5 m c := by
  show after hostOps1 (W4 m ρ c) (Proc.devRef .tc main_arg5) = _
  after_results_simp
  rw [W4_of_ne m ρ c main_arg5 (by decide)]
  exact W3_arg5 m ρ c
theorem W5_arg6 : W5 m ρ c (Proc.devRef .tc main_arg6) = X6 m c := by
  show after hostOps1 (W4 m ρ c) (Proc.devRef .tc main_arg6) = _
  after_results_simp
  rw [W4_of_ne m ρ c main_arg6 (by decide)]
  exact W3_arg6 m ρ c
theorem W5_arg7 : W5 m ρ c (Proc.devRef .tc main_arg7) = X7 m c := by
  show after hostOps1 (W4 m ρ c) (Proc.devRef .tc main_arg7) = _
  after_results_simp
  rw [W4_of_ne m ρ c main_arg7 (by decide)]
  exact W3_arg7 m ρ c
theorem W5_arg8 : W5 m ρ c (Proc.devRef .tc main_arg8) = X8 m c := by
  show after hostOps1 (W4 m ρ c) (Proc.devRef .tc main_arg8) = _
  after_results_simp
  rw [W4_of_ne m ρ c main_arg8 (by decide)]
  exact W3_arg8 m ρ c
theorem W5_arg2 : W5 m ρ c (Proc.devRef .tc main_arg2) = X2 m c := by
  show after hostOps1 (W4 m ρ c) (Proc.devRef .tc main_arg2) = _
  after_results_simp
  rw [W4_of_ne m ρ c main_arg2 (by decide)]
  exact W3_arg2 m ρ c

theorem W6_arg5 : W6 m ρ c (Proc.devRef .tc main_arg5) = X5 m c :=
  (W6_of_ne m ρ c main_arg5 (by decide)).trans (W5_arg5 m ρ c)

theorem W8_arg6 : W8 m ρ c (Proc.devRef .tc main_arg6) = X6 m c := by
  show after hostOps3 (W7 m ρ c) (Proc.devRef .tc main_arg6) = _
  after_results_simp
  rw [W7_of_ne m ρ c main_arg6 (by decide), W6_of_ne m ρ c main_arg6 (by decide)]
  exact W5_arg6 m ρ c
theorem W9_arg7 : W9 m ρ c (Proc.devRef .tc main_arg7) = X7 m c := by
  rw [W9_of_ne m ρ c main_arg7 (by decide)]
  show after hostOps3 (W7 m ρ c) (Proc.devRef .tc main_arg7) = _
  after_results_simp
  rw [W7_of_ne m ρ c main_arg7 (by decide), W6_of_ne m ρ c main_arg7 (by decide)]
  exact W5_arg7 m ρ c
theorem W9_arg8 : W9 m ρ c (Proc.devRef .tc main_arg8) = X8 m c := by
  rw [W9_of_ne m ρ c main_arg8 (by decide)]
  show after hostOps3 (W7 m ρ c) (Proc.devRef .tc main_arg8) = _
  after_results_simp
  rw [W7_of_ne m ρ c main_arg8 (by decide), W6_of_ne m ρ c main_arg8 (by decide)]
  exact W5_arg8 m ρ c
theorem W9_arg2 : W9 m ρ c (Proc.devRef .tc main_arg2) = X2 m c := by
  rw [W9_of_ne m ρ c main_arg2 (by decide)]
  show after hostOps3 (W7 m ρ c) (Proc.devRef .tc main_arg2) = _
  after_results_simp
  rw [W7_of_ne m ρ c main_arg2 (by decide), W6_of_ne m ρ c main_arg2 (by decide)]
  exact W5_arg2 m ρ c

/-! ## Before the first call: the graph's index and weight arrays -/

theorem W1_v3 : W1 m ρ c (Proc.devRef .tc main_v3) = val_main_v3 (F := Ideal) (X1 m c) := StagesA.s0_v3 (W0 m ρ c) (X1 m c) rfl
theorem W1_v6 : W1 m ρ c (Proc.devRef .tc main_v6) = val_main_v6 (F := Ideal) (X1 m c) := StagesA.s0_v6 (W0 m ρ c) (X1 m c) rfl
theorem W1_v12 : W1 m ρ c (Proc.devRef .tc main_v12) = val_main_v12 (F := Ideal) (X1 m c) := StagesA.s0_v12 (W0 m ρ c) (X1 m c) rfl
theorem W1_v13 : W1 m ρ c (Proc.devRef .tc main_v13) = val_main_v13 (F := Ideal) (X1 m c) := StagesA.s0_v13 (W0 m ρ c) (X1 m c) rfl
theorem W1_cst_2 : W1 m ρ c (Proc.devRef .tc main_cst_2) = val_main_cst_2 (F := Ideal) := StagesA.s0_cst_2 (W0 m ρ c)
theorem W2_v14 : W2 m ρ c (Proc.devRef .tc main_v14) = val_main_v14 (F := Ideal) (X1 m c) :=
  StagesA.s01_v14 (W1 m ρ c) (X1 m c) (W1_v12 m ρ c) (W1_v13 m ρ c) (W1_cst_2 m ρ c)
theorem W2_v3 : W2 m ρ c (Proc.devRef .tc main_v3) = val_main_v3 (F := Ideal) (X1 m c) := (StagesA.s01_keep_v3 (W1 m ρ c)).trans (W1_v3 m ρ c)
theorem W2_v6 : W2 m ρ c (Proc.devRef .tc main_v6) = val_main_v6 (F := Ideal) (X1 m c) := (StagesA.s01_keep_v6 (W1 m ρ c)).trans (W1_v6 m ρ c)
theorem W3_v29 : W3 m ρ c (Proc.devRef .tc main_v29) = val_main_v29 (F := Ideal) (X1 m c) :=
  StagesA.s02_v29 (W2 m ρ c) (X1 m c) (W2_v3 m ρ c) (W2_v6 m ρ c) (W2_v14 m ρ c)
theorem W3_v3 : W3 m ρ c (Proc.devRef .tc main_v3) = val_main_v3 (F := Ideal) (X1 m c) := (StagesA.s02_keep_v3 (W2 m ρ c)).trans (W2_v3 m ρ c)
theorem W3_v6 : W3 m ρ c (Proc.devRef .tc main_v6) = val_main_v6 (F := Ideal) (X1 m c) := (StagesA.s02_keep_v6 (W2 m ρ c)).trans (W2_v6 m ρ c)

/-! ## The first call: X * W1 -/

theorem W4_v30 : W4 m ρ c (Proc.devRef .tc main_v30) = val_main_v30 (F := Ideal) (X0 m c) (X3 m c) := by
  refine (W4_arr m ρ c 2).trans ?_
  refine (Lin0.arr (V3 m ρ) c).trans ?_
  show Lin0.whole (W3 m ρ c (Proc.devRef .tc main_arg0)) (W3 m ρ c (Proc.devRef .tc main_arg3)) = _
  rw [W3_arg0, W3_arg3]
  rfl
theorem W4_v3 : W4 m ρ c (Proc.devRef .tc main_v3) = val_main_v3 (F := Ideal) (X1 m c) := (W4_of_ne m ρ c main_v3 (by decide)).trans (W3_v3 m ρ c)
theorem W4_v6 : W4 m ρ c (Proc.devRef .tc main_v6) = val_main_v6 (F := Ideal) (X1 m c) := (W4_of_ne m ρ c main_v6 (by decide)).trans (W3_v6 m ρ c)
theorem W4_v29 : W4 m ρ c (Proc.devRef .tc main_v29) = val_main_v29 (F := Ideal) (X1 m c) := (W4_of_ne m ρ c main_v29 (by decide)).trans (W3_v29 m ρ c)

/-! ## The first aggregation -/

theorem W5_v43 : W5 m ρ c (Proc.devRef .tc main_v43) = val_main_v43 (F := Ideal) (X0 m c) (X1 m c) (X3 m c) :=
  StagesB.s1_v43 (W4 m ρ c) (X0 m c) (X1 m c) (X3 m c) (W4_v30 m ρ c) (W4_v3 m ρ c) (W4_v6 m ρ c) (W4_v29 m ρ c)
theorem W5_v3 : W5 m ρ c (Proc.devRef .tc main_v3) = val_main_v3 (F := Ideal) (X1 m c) := (StagesB.s1_keep_v3 (W4 m ρ c)).trans (W4_v3 m ρ c)
theorem W5_v6 : W5 m ρ c (Proc.devRef .tc main_v6) = val_main_v6 (F := Ideal) (X1 m c) := (StagesB.s1_keep_v6 (W4 m ρ c)).trans (W4_v6 m ρ c)
theorem W5_v29 : W5 m ρ c (Proc.devRef .tc main_v29) = val_main_v29 (F := Ideal) (X1 m c) := (StagesB.s1_keep_v29 (W4 m ρ c)).trans (W4_v29 m ρ c)

/-! ## The second call: max (agg + b1) 0 -/

theorem W6_v44 : W6 m ρ c (Proc.devRef .tc main_v44) = val_main_v47 (F := Ideal) (X0 m c) (X1 m c) (X3 m c) (X4 m c) := by
  refine (W6_arr m ρ c 2).trans ?_
  refine (BiasRelu1.arr (V5 m ρ) c).trans ?_
  show BiasRelu1.whole (W5 m ρ c (Proc.devRef .tc main_v43)) (W5 m ρ c (Proc.devRef .tc main_arg4)) = _
  rw [W5_v43, W5_arg4]
  rfl
theorem W6_v3 : W6 m ρ c (Proc.devRef .tc main_v3) = val_main_v3 (F := Ideal) (X1 m c) := (W6_of_ne m ρ c main_v3 (by decide)).trans (W5_v3 m ρ c)
theorem W6_v6 : W6 m ρ c (Proc.devRef .tc main_v6) = val_main_v6 (F := Ideal) (X1 m c) := (W6_of_ne m ρ c main_v6 (by decide)).trans (W5_v6 m ρ c)
theorem W6_v29 : W6 m ρ c (Proc.devRef .tc main_v29) = val_main_v29 (F := Ideal) (X1 m c) := (W6_of_ne m ρ c main_v29 (by decide)).trans (W5_v29 m ρ c)

/-! ## The third call: its product with W2 -/

theorem W7_v45 : W7 m ρ c (Proc.devRef .tc main_v45) = val_main_v48 (F := Ideal) (X0 m c) (X1 m c) (X3 m c) (X4 m c) (X5 m c) := by
  refine (W7_arr m ρ c 2).trans ?_
  refine (Lin2.arr (V6 m ρ) c).trans ?_
  show Lin2.whole (W6 m ρ c (Proc.devRef .tc main_v44)) (W6 m ρ c (Proc.devRef .tc main_arg5)) = _
  rw [W6_v44, W6_arg5]
  rfl
theorem W7_v3 : W7 m ρ c (Proc.devRef .tc main_v3) = val_main_v3 (F := Ideal) (X1 m c) := (W7_of_ne m ρ c main_v3 (by decide)).trans (W6_v3 m ρ c)
theorem W7_v6 : W7 m ρ c (Proc.devRef .tc main_v6) = val_main_v6 (F := Ideal) (X1 m c) := (W7_of_ne m ρ c main_v6 (by decide)).trans (W6_v6 m ρ c)
theorem W7_v29 : W7 m ρ c (Proc.devRef .tc main_v29) = val_main_v29 (F := Ideal) (X1 m c) := (W7_of_ne m ρ c main_v29 (by decide)).trans (W6_v29 m ρ c)

/-! ## The second aggregation -/

theorem W8_v58 : W8 m ρ c (Proc.devRef .tc main_v58) = val_main_v61 (F := Ideal) (X0 m c) (X1 m c) (X3 m c) (X4 m c) (X5 m c) :=
  StagesB.s3_v58 (W7 m ρ c) (X0 m c) (X1 m c) (X3 m c) (X4 m c) (X5 m c) (W7_v45 m ρ c) (W7_v3 m ρ c) (W7_v6 m ρ c) (W7_v29 m ρ c)

/-! ## The fourth call: max (agg + b2) 0, the features -/

theorem W9_v59 : W9 m ρ c (Proc.devRef .tc main_v59) = val_main_v65 (F := Ideal) (X0 m c) (X1 m c) (X3 m c) (X4 m c) (X5 m c) (X6 m c) := by
  refine (W9_arr m ρ c 2).trans ?_
  refine (BiasRelu3.arr (V8 m ρ) c).trans ?_
  show BiasRelu3.whole (W8 m ρ c (Proc.devRef .tc main_v58)) (W8 m ρ c (Proc.devRef .tc main_arg6)) = _
  rw [W8_v58, W8_arg6]
  rfl

/-! ## After the last call: scores, gathers, log-softmax -/

theorem W10_v63 : W10 m ρ c (Proc.devRef .tc main_v63) = val_main_v69 (F := Ideal) (X0 m c) (X1 m c) (X3 m c) (X4 m c) (X5 m c) (X6 m c) (X7 m c) (X8 m c) :=
  StagesC.s4_v63 (W9 m ρ c) (X0 m c) (X1 m c) (X3 m c) (X4 m c) (X5 m c) (X6 m c) (X7 m c) (X8 m c) (W9_v59 m ρ c) (W9_arg7 m ρ c) (W9_arg8 m ρ c)
theorem W10_v59 : W10 m ρ c (Proc.devRef .tc main_v59) = val_main_v65 (F := Ideal) (X0 m c) (X1 m c) (X3 m c) (X4 m c) (X5 m c) (X6 m c) :=
  (StagesC.s4_keep_v59 (W9 m ρ c)).trans (W9_v59 m ρ c)
theorem W10_arg2 : W10 m ρ c (Proc.devRef .tc main_arg2) = X2 m c := (StagesC.s4_keep_arg2 (W9 m ρ c)).trans (W9_arg2 m ρ c)

theorem W11_v64 : W11 m ρ c (Proc.devRef .tc main_v64) = val_main_v70 (F := Ideal) (X0 m c) (X1 m c) (X3 m c) (X4 m c) (X5 m c) (X6 m c) (X7 m c) (X8 m c) :=
  StagesC.s41_v64 (W10 m ρ c) (X0 m c) (X1 m c) (X3 m c) (X4 m c) (X5 m c) (X6 m c) (X7 m c) (X8 m c) (W10_v63 m ρ c)
theorem W11_v59 : W11 m ρ c (Proc.devRef .tc main_v59) = val_main_v65 (F := Ideal) (X0 m c) (X1 m c) (X3 m c) (X4 m c) (X5 m c) (X6 m c) :=
  (StagesC.s41_keep_v59 (W10 m ρ c)).trans (W10_v59 m ρ c)
theorem W11_arg2 : W11 m ρ c (Proc.devRef .tc main_arg2) = X2 m c := (StagesC.s41_keep_arg2 (W10 m ρ c)).trans (W10_arg2 m ρ c)

theorem W12_v71 : W12 m ρ c (Proc.devRef .tc main_v71) = val_main_v77 (F := Ideal) (X0 m c) (X1 m c) (X2 m c) (X3 m c) (X4 m c) (X5 m c) (X6 m c) (X7 m c) (X8 m c) :=
  StagesC.s42_v71 (W11 m ρ c) (X0 m c) (X1 m c) (X2 m c) (X3 m c) (X4 m c) (X5 m c) (X6 m c) (X7 m c) (X8 m c) (W11_v64 m ρ c) (W11_arg2 m ρ c)
theorem W12_v59 : W12 m ρ c (Proc.devRef .tc main_v59) = val_main_v65 (F := Ideal) (X0 m c) (X1 m c) (X3 m c) (X4 m c) (X5 m c) (X6 m c) :=
  (StagesC.s42_keep_v59 (W11 m ρ c)).trans (W11_v59 m ρ c)
theorem W12_arg2 : W12 m ρ c (Proc.devRef .tc main_arg2) = X2 m c := (StagesC.s42_keep_arg2 (W11 m ρ c)).trans (W11_arg2 m ρ c)

theorem W13_v72 : W13 m ρ c (Proc.devRef .tc main_v72) = val_main_v78 (F := Ideal) (X0 m c) (X1 m c) (X2 m c) (X3 m c) (X4 m c) (X5 m c) (X6 m c) (X7 m c) (X8 m c) :=
  StagesC.s43_v72 (W12 m ρ c) (X0 m c) (X1 m c) (X2 m c) (X3 m c) (X4 m c) (X5 m c) (X6 m c) (X7 m c) (X8 m c) (W12_v71 m ρ c)
theorem W13_v71 : W13 m ρ c (Proc.devRef .tc main_v71) = val_main_v77 (F := Ideal) (X0 m c) (X1 m c) (X2 m c) (X3 m c) (X4 m c) (X5 m c) (X6 m c) (X7 m c) (X8 m c) :=
  (StagesC.s43_keep_v71 (W12 m ρ c)).trans (W12_v71 m ρ c)
theorem W13_v59 : W13 m ρ c (Proc.devRef .tc main_v59) = val_main_v65 (F := Ideal) (X0 m c) (X1 m c) (X3 m c) (X4 m c) (X5 m c) (X6 m c) :=
  (StagesC.s43_keep_v59 (W12 m ρ c)).trans (W12_v59 m ρ c)
theorem W13_arg2 : W13 m ρ c (Proc.devRef .tc main_arg2) = X2 m c := (StagesC.s43_keep_arg2 (W12 m ρ c)).trans (W12_arg2 m ρ c)

/-- The batch nodes' log-probabilities. -/
theorem W14_v72 : W14 m ρ c (Proc.devRef .tc main_v72) = val_main_v78 (F := Ideal) (X0 m c) (X1 m c) (X2 m c) (X3 m c) (X4 m c) (X5 m c) (X6 m c) (X7 m c) (X8 m c) :=
  (StagesC.s44_keep_v72 (W13 m ρ c)).trans (W13_v72 m ρ c)
/-- The batch nodes' rectified scores. -/
theorem W14_v71 : W14 m ρ c (Proc.devRef .tc main_v71) = val_main_v77 (F := Ideal) (X0 m c) (X1 m c) (X2 m c) (X3 m c) (X4 m c) (X5 m c) (X6 m c) (X7 m c) (X8 m c) :=
  (StagesC.s44_keep_v71 (W13 m ρ c)).trans (W13_v71 m ρ c)
/-- The batch nodes' features. -/
theorem W14_v79 : W14 m ρ c (Proc.devRef .tc main_v79) = val_main_v85 (F := Ideal) (X0 m c) (X1 m c) (X2 m c) (X3 m c) (X4 m c) (X5 m c) (X6 m c) :=
  StagesC.s44_v79 (W13 m ρ c) (X0 m c) (X1 m c) (X2 m c) (X3 m c) (X4 m c) (X5 m c) (X6 m c) (W13_v59 m ρ c) (W13_arg2 m ρ c)

end Cert.KernelIdeal.Chain

end
-- ==== Proof.lean ====
/-
  A two-layer graph convolution with a linear head, against its plain jnp form.

  Both programs normalise the graph the same way on the host (self loops, degrees by a scatter-add, edge weights
  dinv[src] * dinv[dst]) and end the same way (class scores max (H2 * Wl + bl) 0, the gathers at the batch nodes, the
  log-softmax). They differ in the two layers: where the plain program computes H = X * W by one dot_general and
  max (agg + b) 0 by a broadcast, an add and a maximum over the whole [100000, 128] array, the kernel runs four
  pallas_calls over 20 row blocks of 5000 rows - a matrix-unit product of the block with the whole weight matrix
  (operands narrowed to bf16, accumulated into zeros), and a bias add and rectification of the block.

  Over the extended reals narrowing is the identity and the matrix unit's product is the textbook sum, so block t of a
  call's result is block t of the plain program's whole-array operation, and the blocks tile the rows: each call leaves
  exactly the array the plain program's operations leave (Proof/Lin0, Lin2, BiasRelu1, BiasRelu3). Everything between
  the calls is the same host operation on both sides, so the values agree buffer by buffer along the run
  (Proof/StagesA, StagesB, StagesC, Proof/Chain), and the three results are the plain program's functions of the
  arguments. No law of arithmetic beyond these identities is used, so the finiteness of the inputs is not needed.

  The frames of the kernel and of its idealization are the generated ones; the plain program's frame is its run with
  the results dropped; the idealization rewrote no operation, so it preserves the kernel trivially.
-/
import proofs.«111607_j7825430413942_1_alg».proof.Defs
import proofs.«111607_j7825430413942_1_alg».proof.Proof.Gen.Kernel
import proofs.«111607_j7825430413942_1_alg».proof.Proof.Gen.Kernel.Skeleton
import proofs.«111607_j7825430413942_1_alg».proof.Proof.Gen.Kernel.Launch
import proofs.«111607_j7825430413942_1_alg».proof.Proof.Gen.Kernel.Points
import proofs.«111607_j7825430413942_1_alg».proof.Proof.Gen.Kernel.Frame
import proofs.«111607_j7825430413942_1_alg».proof.Proof.Gen.KernelIdeal
import proofs.«111607_j7825430413942_1_alg».proof.Proof.Gen.KernelIdeal.Skeleton
import proofs.«111607_j7825430413942_1_alg».proof.Proof.Gen.KernelIdeal.Launch
import proofs.«111607_j7825430413942_1_alg».proof.Proof.Gen.KernelIdeal.Points
import proofs.«111607_j7825430413942_1_alg».proof.Proof.Gen.KernelIdeal.Frame
import proofs.«111607_j7825430413942_1_alg».proof.Proof.Gen.ReferenceIdeal
import proofs.«111607_j7825430413942_1_alg».proof.Proof.Gen.Pre_finite_inputs
import proofs.«111607_j7825430413942_1_alg».proof.Proof.RefRun
import proofs.«111607_j7825430413942_1_alg».proof.Proof.RefRead
import proofs.«111607_j7825430413942_1_alg».proof.Proof.KRun
import proofs.«111607_j7825430413942_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The plain program's run, its results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Both runs end, the kernel's results at the last boundary's contents of its fold and the plain program's at its
    composed terms; read stage by stage both are the same functions of arguments that agree. -/
theorem algebraic : Cert.algebraic_KernelIdeal_ReferenceIdeal := by
  intro m ρ m' ρ' _ hagree
  refine ⟨fun c => Cert.KernelIdeal.Gen.W14 m ρ c (Proc.devRef .tc Cert.KernelIdeal.main_v72),
    fun c => Cert.KernelIdeal.Gen.W14 m ρ c (Proc.devRef .tc Cert.KernelIdeal.main_v71),
    fun c => Cert.KernelIdeal.Gen.W14 m ρ c (Proc.devRef .tc Cert.KernelIdeal.main_v79),
    Cert.KernelIdeal.GenRun.run_results (F := Ideal) m ρ, ?_⟩
  refine (θ_run Cert.ReferenceIdeal.defs _ _).mono (fun _ h c => ?_) (Cert.ReferenceIdeal.ValueP.run (F := Ideal) m' ρ')
  obtain ⟨a0, a1, a2, a3, a4, a5, a6, a7, a8⟩ := hagree c
  refine ⟨(h c).1.trans ?_, (h c).2.1.trans ?_, (h c).2.2.1.trans ?_, (h c).2.2.2⟩
  · rw [Cert.ReferenceIdeal.ReadP.val_main_v78_eq, a0, a1, a2, a3, a4, a5, a6, a7, a8]
    exact (Cert.KernelIdeal.Chain.W14_v72 m ρ c).symm
  · rw [Cert.ReferenceIdeal.ReadP.val_main_v77_eq, a0, a1, a2, a3, a4, a5, a6, a7, a8]
    exact (Cert.KernelIdeal.Chain.W14_v71 m ρ c).symm
  · rw [Cert.ReferenceIdeal.ReadP.val_main_v85_eq, a0, a1, a2, a3, a4, a5, a6]
    exact (Cert.KernelIdeal.Chain.W14_v79 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
